-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000x2 : Shape := ⟨2, ![1000000, 2]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S1000000x128 .f32) (main_arg1 : IVec S1000000x2 32) (main_arg2 : FVec F S128x128 .f32) (main_arg3 : FVec F S128 .f32) (main_arg4 : FVec F S128x16 .f32) (main_arg5 : FVec F S16 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S1000000x128 : Shape := ⟨2, ![1000000, 128]⟩
abbrev S1000000x2 : Shape := ⟨2, ![1000000, 2]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S8000x128 : Shape := ⟨2, ![8000, 128]⟩
abbrev S1000000x1 : Shape := ⟨2, ![1000000, 1]⟩
abbrev S1000000 : Shape := ⟨1, ![1000000]⟩
abbrev S_ : Shape := ⟨0, ![]⟩
abbrev S1x16 : Shape := ⟨2, ![1, 16]⟩
abbrev S1000000x16 : Shape := ⟨2, ![1000000, 16]⟩
abbrev S8000x16 : Shape := ⟨2, ![8000, 16]⟩

abbrev nBuf : Space → Nat
  | .hbm => 60
  | .vmem => 12
  | .smem => 0
  | _ => 0

abbrev bufTy : (tb : Table) → Fin (tcTables nBuf tb) → BufTy
  | .hbm, ⟨0, _⟩ => ⟨S1000000x128, .f32⟩
  | .hbm, ⟨1, _⟩ => ⟨S1000000x2, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1x128, .f32⟩
  | .hbm, ⟨7, _⟩ => ⟨S1000000x128, .f32⟩
  | .hbm, ⟨8, _⟩ => ⟨S1000000x1, .i32⟩
  | .hbm, ⟨9, _⟩ => ⟨S1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S_, .i32⟩
  | .hbm, ⟨26, _⟩ => ⟨S1000000, .i32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000, .i32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000, .i32⟩
  | .hbm, ⟨54, _⟩ => ⟨S_, .f32⟩
  | .hbm, ⟨55, _⟩ => ⟨S1000000x128, .f32⟩
  | .hbm, ⟨56, _⟩ => ⟨S1000000x1, .i32⟩
  | .hbm, ⟨57, _⟩ => ⟨S1000000x128, .f32⟩
  | .hbm, ⟨58, _⟩ => ⟨S1x16, .f32⟩
  | .hbm, ⟨59, _⟩ => ⟨S1000000x16, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | .local _ .vmem, ⟨8, _⟩ => ⟨S128x16, .f32⟩
  | .local _ .vmem, ⟨9, _⟩ => ⟨S1x16, .f32⟩
  | .local _ .vmem, ⟨10, _⟩ => ⟨S8000x16, .f32⟩
  | .local _ .vmem, ⟨11, _⟩ => ⟨S8000x16, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1_0 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  shapeCasts_S16_S1x16 : S16.ShapeCasts S1x16
  shapeCasts_S8000x128_S8000x128 : S8000x128.ShapeCasts S8000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S8000x16_S8000x16_0_0 : ∀ a, (![0, 0] : Fin 2 → Nat) a + S8000x16.size a ≤ S8000x16.size a
  h_S8000x16 : 0 < S8000x16.numel
  dot_S8000x128_S128x128_S8000x128_1_0_0_1_n_n_wf : DotDims.WF S8000x128 S128x128 S8000x128 [1] [0] [0] [1] [] []
  scatter_S1000000_S1000000x1_S1000000_n_0_0_1_wf : ScatterDims.WF S1000000 S1000000x1 S1000000 [] [0] [0] 1
  gather_S1000000_S1000000x1_S1000000_n_0_n_n_0_1_1_wf : GatherDims.WF S1000000 S1000000x1 S1000000 [] [0] [] [0] [] 1 ![1]
  scatter_S1000000x128_S1000000x1_S1000000x128_1_0_0_1_wf : ScatterDims.WF S1000000x128 S1000000x1 S1000000x128 [1] [0] [0] 1
  dot_S8000x128_S128x16_S8000x16_1_0_0_1_n_n_wf : DotDims.WF S8000x128 S128x16 S8000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1000000x128.size a
  hwx0_3 : ∀ i : grid0.Coords, EltTy.bits .f32 = 32 ∨ (Rect.block (s := S1000000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1000000x128.size a
  hwx1_0 : ∀ i : grid1.Coords, EltTy.bits .f32 = 32 ∨ (Rect.block (s := S1000000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .f32 = 32 ∨ (Rect.block (s := S128x16) S128x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x16.size a ≤ S1000000x16.size a
  hwx1_3 : ∀ i : grid1.Coords, EltTy.bits .f32 = 32 ∨ (Rect.block (s := S1000000x16) S8000x16.size (cc1_transform_3 i) (hinb1_3 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S1000000_S1000000x1_S1000000_n_0_0_1 : ScatterDims S1000000 S1000000x1 S1000000 where
  updateWindowDims := []
  insertedWindowDims := [0]
  scatterDimsToOperandDims := [0]
  indexVectorDim := 1
  wf := scatter_S1000000_S1000000x1_S1000000_n_0_0_1_wf
def comparator_i32_i32_d0 : BitVec 32 × BitVec 32 → BitVec 32 × BitVec 32 → BitVec 1 :=
  fun l r =>
    let v2 := IntOp.cmpi .slt l.1 r.1
    v2
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf
def scatter_S1000000x128_S1000000x1_S1000000x128_1_0_0_1 : ScatterDims S1000000x128 S1000000x1 S1000000x128 where
  updateWindowDims := [1]
  insertedWindowDims := [0]
  scatterDimsToOperandDims := [0]
  indexVectorDim := 1
  wf := scatter_S1000000x128_S1000000x1_S1000000x128_1_0_0_1_wf
def dot_S8000x128_S128x16_S8000x16_1_0_0_1_n_n : DotDims S8000x128 S128x16 S8000x16 where
  lhsContracting := [1]
  rhsContracting := [0]
  lhsNonContracting := [0]
  rhsNonContracting := [1]
  lhsBatch := []
  rhsBatch := []
  wf := dot_S8000x128_S128x16_S8000x16_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S8000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000x2 : Shape := ⟨2, ![1000000, 2]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S_ : Shape := ⟨0, ![]⟩
abbrev S1000000x1 : Shape := ⟨2, ![1000000, 1]⟩
abbrev S1000000 : Shape := ⟨1, ![1000000]⟩
abbrev S1000000x16 : Shape := ⟨2, ![1000000, 16]⟩
abbrev S1x16 : Shape := ⟨2, ![1, 16]⟩

abbrev nBuf : Space → Nat
  | .hbm => 70
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x2, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1000000x128, .f32⟩
  | .hbm, ⟨7, _⟩ => ⟨S1x128, .f32⟩
  | .hbm, ⟨8, _⟩ => ⟨S1000000x128, .f32⟩
  | .hbm, ⟨9, _⟩ => ⟨S1000000x128, .f32⟩
  | .hbm, ⟨10, _⟩ => ⟨S_, .f32⟩
  | .hbm, ⟨11, _⟩ => ⟨S1000000x128, .f32⟩
  | .hbm, ⟨12, _⟩ => ⟨S1000000x128, .f32⟩
  | .hbm, ⟨13, _⟩ => ⟨S1000000x1, .i32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S_, .i32⟩
  | .hbm, ⟨31, _⟩ => ⟨S1000000, .i32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000, .i32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000, .i32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000, .i32⟩
  | .hbm, ⟨59, _⟩ => ⟨S_, .f32⟩
  | .hbm, ⟨60, _⟩ => ⟨S1000000x128, .f32⟩
  | .hbm, ⟨61, _⟩ => ⟨S1000000x1, .i32⟩
  | .hbm, ⟨62, _⟩ => ⟨S1000000x128, .f32⟩
  | .hbm, ⟨63, _⟩ => ⟨S_, .f32⟩
  | .hbm, ⟨64, _⟩ => ⟨S1000000x128, .f32⟩
  | .hbm, ⟨65, _⟩ => ⟨S1000000x128, .f32⟩
  | .hbm, ⟨66, _⟩ => ⟨S1000000x16, .f32⟩
  | .hbm, ⟨67, _⟩ => ⟨S1x16, .f32⟩
  | .hbm, ⟨68, _⟩ => ⟨S1000000x16, .f32⟩
  | .hbm, ⟨69, _⟩ => ⟨S1000000x16, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1_0 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call2_cst : Ref sig .tc := ⟨.hbm, 63, rfl⟩
abbrev main_call2_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  dot_S1000000x128_S128x128_S1000000x128_1_0_0_1_n_n_wf : DotDims.WF S1000000x128 S128x128 S1000000x128 [1] [0] [0] [1] [] []
  scatter_S1000000_S1000000x1_S1000000_n_0_0_1_wf : ScatterDims.WF S1000000 S1000000x1 S1000000 [] [0] [0] 1
  gather_S1000000_S1000000x1_S1000000_n_0_n_n_0_1_1_wf : GatherDims.WF S1000000 S1000000x1 S1000000 [] [0] [] [0] [] 1 ![1]
  scatter_S1000000x128_S1000000x1_S1000000x128_1_0_0_1_wf : ScatterDims.WF S1000000x128 S1000000x1 S1000000x128 [1] [0] [0] 1
  dot_S1000000x128_S128x16_S1000000x16_1_0_0_1_n_n_wf : DotDims.WF S1000000x128 S128x16 S1000000x16 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S1000000_S1000000x1_S1000000_n_0_0_1 : ScatterDims S1000000 S1000000x1 S1000000 where
  updateWindowDims := []
  insertedWindowDims := [0]
  scatterDimsToOperandDims := [0]
  indexVectorDim := 1
  wf := scatter_S1000000_S1000000x1_S1000000_n_0_0_1_wf
def comparator_i32_i32_d0 : BitVec 32 × BitVec 32 → BitVec 32 × BitVec 32 → BitVec 1 :=
  fun l r =>
    let v2 := IntOp.cmpi .slt l.1 r.1
    v2
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf
def scatter_S1000000x128_S1000000x1_S1000000x128_1_0_0_1 : ScatterDims S1000000x128 S1000000x1 S1000000x128 where
  updateWindowDims := [1]
  insertedWindowDims := [0]
  scatterDimsToOperandDims := [0]
  indexVectorDim := 1
  wf := scatter_S1000000x128_S1000000x1_S1000000x128_1_0_0_1_wf
def dot_S1000000x128_S128x16_S1000000x16_1_0_0_1_n_n : DotDims S1000000x128 S128x16 S1000000x16 where
  lhsContracting := [1]
  rhsContracting := [0]
  lhsNonContracting := [0]
  rhsNonContracting := [1]
  lhsBatch := []
  rhsBatch := []
  wf := dot_S1000000x128_S128x16_S1000000x16_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Spec.lean ====
/-
  The two dense layers of the model as functions of whole arrays, index by index, on the extended reals.

  Layer 1, at row p and column q:   h(p, q)   = max( Σ_k x(p, k) · W1(k, q) + b1(q), 0 ).
  Layer 2, at row p and column q:   out(p, q) = Σ_k max( a(p, k), 0 ) · W2(k, q) + b2(q),
  where a is the aggregated hidden array (a function of h and of the edge list that both programs compute alike).
  The bias enters as a function of the column so that a bias kept as a vector and one kept as a one-row matrix
  give the same expression.
-/
import Idealize.ShloMosaic.PureOps.Ideal.Laws
import Idealize.ShloMosaic.Lib.ValueIdx

noncomputable section

namespace Cert.Spec

open Idealize.ShloMosaic Idealize.ShloMosaic.ValueIdx

/-- The float zero as both programs spell it. -/
abbrev zero : EReal := Ideal.ofBits .f32 0x00000000#32

/-- Layer 1 at a row and a column. -/
def hiddenAt {R : Nat} (x : (⟨2, ![R, 128]⟩ : Shape).Idx → EReal) (w : (⟨2, ![128, 128]⟩ : Shape).Idx → EReal) (b : Fin 128 → EReal)
    (p : Fin R) (q : Fin 128) : EReal :=
  max ((∑ k : Fin 128, x (ix2 p k) * w (ix2 k q)) + b q) zero

/-- Layer 1 on R rows: the rectified affine map of the rows of `x`. -/
def hidden {R : Nat} (x : (⟨2, ![R, 128]⟩ : Shape).Idx → EReal) (w : (⟨2, ![128, 128]⟩ : Shape).Idx → EReal) (b : Fin 128 → EReal) :
    (⟨2, ![R, 128]⟩ : Shape).Idx → EReal :=
  fun i => hiddenAt x w b (i 0) (i 1)

theorem hidden_apply {R : Nat} (x : (⟨2, ![R, 128]⟩ : Shape).Idx → EReal) (w : (⟨2, ![128, 128]⟩ : Shape).Idx → EReal) (b : Fin 128 → EReal)
    (p : Fin R) (q : Fin 128) : hidden x w b (ix2 p q) = hiddenAt x w b p q := rfl

/-- Layer 1 at (p, q) depends on row p of `x`, column q of the weights and entry q of the bias only. -/
theorem hiddenAt_congr {R R' : Nat} (x : (⟨2, ![R, 128]⟩ : Shape).Idx → EReal) (x' : (⟨2, ![R', 128]⟩ : Shape).Idx → EReal)
    (w w' : (⟨2, ![128, 128]⟩ : Shape).Idx → EReal) (b b' : Fin 128 → EReal) (p : Fin R) (p' : Fin R') (q : Fin 128)
    (hx : ∀ k : Fin 128, x (ix2 p k) = x' (ix2 p' k)) (hw : ∀ k : Fin 128, w (ix2 k q) = w' (ix2 k q)) (hb : b q = b' q) :
    hiddenAt x w b p q = hiddenAt x' w' b' p' q := by
  unfold hiddenAt
  rw [Finset.sum_congr rfl (fun k _ => by rw [hx k, hw k]), hb]

/-- Layer 2 at a row and a column. -/
def logitsAt {R : Nat} (a : (⟨2, ![R, 128]⟩ : Shape).Idx → EReal) (w : (⟨2, ![128, 16]⟩ : Shape).Idx → EReal) (b : Fin 16 → EReal)
    (p : Fin R) (q : Fin 16) : EReal :=
  (∑ k : Fin 128, max (a (ix2 p k)) zero * w (ix2 k q)) + b q

/-- Layer 2 on R rows: the affine map of the rectified rows of `a`. -/
def logits {R : Nat} (a : (⟨2, ![R, 128]⟩ : Shape).Idx → EReal) (w : (⟨2, ![128, 16]⟩ : Shape).Idx → EReal) (b : Fin 16 → EReal) :
    (⟨2, ![R, 16]⟩ : Shape).Idx → EReal :=
  fun i => logitsAt a w b (i 0) (i 1)

theorem logits_apply {R : Nat} (a : (⟨2, ![R, 128]⟩ : Shape).Idx → EReal) (w : (⟨2, ![128, 16]⟩ : Shape).Idx → EReal) (b : Fin 16 → EReal)
    (p : Fin R) (q : Fin 16) : logits a w b (ix2 p q) = logitsAt a w b p q := rfl

/-- Layer 2 at (p, q) depends on row p of `a`, column q of the weights and entry q of the bias only. -/
theorem logitsAt_congr {R R' : Nat} (a : (⟨2, ![R, 128]⟩ : Shape).Idx → EReal) (a' : (⟨2, ![R', 128]⟩ : Shape).Idx → EReal)
    (w w' : (⟨2, ![128, 16]⟩ : Shape).Idx → EReal) (b b' : Fin 16 → EReal) (p : Fin R) (p' : Fin R') (q : Fin 16)
    (ha : ∀ k : Fin 128, a (ix2 p k) = a' (ix2 p' k)) (hw : ∀ k : Fin 128, w (ix2 k q) = w' (ix2 k q)) (hb : b q = b' q) :
    logitsAt a w b p q = logitsAt a' w' b' p' q := by
  unfold logitsAt
  rw [Finset.sum_congr rfl (fun k _ => by rw [ha k, hw k]), hb]

end Cert.Spec

end
-- ==== Proof.KPayload.lean ====
/-
  What the two kernel bodies store, at an index of the block, on the extended reals.

  Body 1 stores  max( x_blk · W1 + b1_row, 0 )  and body 2 stores  max( a_blk, 0 ) · W2 + b2_row : the casts to
  bf16 are the identity on extended reals, the matrix product into a zero accumulator is the sum over the contracted
  axis, and the one-row bias broadcast down the rows reads the row at the column.  So each stored block is the
  layer's function (`Spec.hidden`, `Spec.logits`) of the loaded blocks.
-/
import proofs.«155397_j9234179686641_1_alg».proof.Proof.Gen.KernelIdeal.Skeleton
import proofs.«155397_j9234179686641_1_alg».proof.Proof.LibPlainDot
import proofs.«155397_j9234179686641_1_alg».proof.Proof.Spec
import Idealize.ShloMosaic.Lib.Pipeline.Value

noncomputable section

namespace Cert.KernelIdeal.Payload

open Idealize.ShloMosaic Idealize.ShloMosaic.TcCoe Idealize.ShloMosaic.ValueIdx Cert.KernelIdeal Cert.KernelIdeal.Gen

/-- The printed dimension numbers of both products are the plain ones. -/
theorem dot1_plain : dot_S8000x128_S128x128_S8000x128_1_0_0_1_n_n = DotDims.plain 8000 128 128 := rfl
theorem dot2_plain : dot_S8000x128_S128x16_S8000x16_1_0_0_1_n_n = DotDims.plain 8000 128 16 := rfl

/-- A one-row matrix recast to itself and broadcast down R rows reads, at (p, q), the row at q. -/
theorem rowOfOne_apply {α : Type} {R C : Nat} (v : (⟨2, ![1, C]⟩ : Shape).Idx → α)
    (h1 : (⟨2, ![1, C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix2 (0 : Fin 1) q) := by
  rw [shapeCast_self]
  refine broadcastTo_apply v h2 (ix2 p q) (ix2 (0 : Fin 1) q) (fun a => ?_)
  match a with
  | ⟨0, _⟩ => show (0 : Nat) = if (1 : Nat) = 1 then 0 else _; rw [if_pos rfl]
  | ⟨1, _⟩ =>
    show q.val = if C = 1 then 0 else q.val
    split
    · have := q.isLt; omega
    · rfl

/-- Body 1's stored block at (p, q). -/
theorem pay0_apply (x0 : Vec Ideal S8000x128 .f32) (x1 : Vec Ideal S128x128 .f32) (x2 : Vec Ideal S1x128 .f32) (p : Fin 8000) (q : Fin 128) :
    k0_pay1 (F := Ideal) x0 x1 x2 (ix2 p q) = Cert.Spec.hiddenAt (R := 8000) x0 x1 (fun q => x2 (ix2 (0 : Fin 1) q)) p q := by
  unfold k0_pay1 Cert.Spec.hiddenAt
  dsimp only
  rw [maximumf_apply, addf_apply, broadcast_apply, rowOfOne_apply, dot1_plain]
  have hm := Cert.LibPlainDot.matmul_plain_zero none (truncf .bf16 x0 bitsLt_bf16_f32) (truncf .bf16 x1 bitsLt_bf16_f32) (ix2 p q)
  exact congrArg₂ max (congrArg₂ (· + ·) hm rfl) rfl

/-- Body 1's stored block is layer 1 of the loaded blocks. -/
theorem pay0_eq (x0 : Vec Ideal S8000x128 .f32) (x1 : Vec Ideal S128x128 .f32) (x2 : Vec Ideal S1x128 .f32) :
    k0_pay1 (F := Ideal) x0 x1 x2 = Cert.Spec.hidden (R := 8000) x0 x1 (fun q => x2 (ix2 (0 : Fin 1) q)) := by
  funext j
  obtain ⟨p, q, rfl⟩ : ∃ (p : Fin 8000) (q : Fin 128), j = ix2 p q := ⟨j 0, j 1, eq_ix2 j⟩
  rw [pay0_apply, Cert.Spec.hidden_apply]

/-- Body 2's stored block at (p, q). -/
theorem pay1_apply (x0 : Vec Ideal S8000x128 .f32) (x1 : Vec Ideal S128x16 .f32) (x2 : Vec Ideal S1x16 .f32) (p : Fin 8000) (q : Fin 16) :
    k1_pay1 (F := Ideal) x0 x1 x2 (ix2 p q) = Cert.Spec.logitsAt (R := 8000) x0 x1 (fun q => x2 (ix2 (0 : Fin 1) q)) p q := by
  unfold k1_pay1 Cert.Spec.logitsAt
  dsimp only
  rw [addf_apply, rowOfOne_apply, dot2_plain, shapeCast_self]
  have hm := Cert.LibPlainDot.matmul_plain_zero none
    (truncf .bf16 (maximumf x0 (broadcast S8000x128 (Scalar.ofBits (F := Ideal) .f32 0x00000000#32))) bitsLt_bf16_f32) (truncf .bf16 x1 bitsLt_bf16_f32) (ix2 p q)
  exact congrArg₂ (· + ·) hm rfl

/-- Body 2's stored block is layer 2 of the loaded blocks. -/
theorem pay1_eq (x0 : Vec Ideal S8000x128 .f32) (x1 : Vec Ideal S128x16 .f32) (x2 : Vec Ideal S1x16 .f32) :
    k1_pay1 (F := Ideal) x0 x1 x2 = Cert.Spec.logits (R := 8000) x0 x1 (fun q => x2 (ix2 (0 : Fin 1) q)) := by
  funext j
  obtain ⟨p, q, rfl⟩ : ∃ (p : Fin 8000) (q : Fin 16), j = ix2 p q := ⟨j 0, j 1, eq_ix2 j⟩
  rw [pay1_apply, Cert.Spec.logits_apply]

end Cert.KernelIdeal.Payload

end
-- ==== Proof.KRegion0.lean ====
/-
  Region 1 of the kernel program (the first dense layer), from blocks to the whole array.

  Grid point t loads rows 8000·t … 8000·t + 7999 of x, all of W1 and the one bias row, and writes rows
  8000·t … 8000·t + 7999 of the output.  What it writes is layer 1 of the loaded blocks, and layer 1 at a row
  depends on that row of x only; so block t of the output is block t of layer 1 of the whole arrays.  The 125
  blocks tile the 1,000,000 rows, so the output array ends holding layer 1 of the arrays the region was entered with.
-/
import proofs.«155397_j9234179686641_1_alg».proof.Proof.Gen.KernelIdeal.Frame
import proofs.«155397_j9234179686641_1_alg».proof.Proof.KPayload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the weight and bias windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row window's block at point t is rows 8000·t … of its array. -/
theorem xblk_apply (c : Dev nD) (t : Fin cfg0.N) (y : S8000x128.Idx) (i : S1000000x128.Idx)
    (h0 : (i 0).val = t.val * 8000 + (y 0).val) (h1 : (i 1).val = (y 1).val) :
    (iblk0 V c 0 t : Vec Ideal S8000x128 .f32) y = (V c main_arg0 : S1000000x128.Idx → EReal) i := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 8000 + 1 * (y 0).val = (i 0).val; rw [e0, h0]; omega
  | ⟨1, _⟩ => show win0_0.index t (1 : Fin 2) * 128 + 1 * (y 1).val = (i 1).val; rw [e1, h1]; omega

/-- The weight window's block is the whole weight array at every point. -/
theorem wblk_apply (c : Dev nD) (t : Fin cfg0.N) (y : S128x128.Idx) :
    (iblk0 V c 1 t : Vec Ideal S128x128 .f32) y = (V c main_arg2 : S128x128.Idx → EReal) y := by
  obtain ⟨-, -, e0, e1, -⟩ := idx_facts t
  unfold iblk0
  rw [View.read_apply]
  show V c main_arg2 _ = V c main_arg2 _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias window's block is the whole one-row bias at every point. -/
theorem bblk_apply (c : Dev nD) (t : Fin cfg0.N) (y : S1x128.Idx) :
    (iblk0 V c 2 t : Vec Ideal S1x128 .f32) y = (V c main_v0 : S1x128.Idx → EReal) y := by
  obtain ⟨-, -, -, -, e0, e1, -⟩ := idx_facts t
  unfold iblk0
  rw [View.read_apply]
  show V c main_v0 _ = V c main_v0 _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The whole array the region leaves: layer 1 of the arrays it was entered with. -/
abbrev result (c : Dev nD) : S1000000x128.Idx → EReal :=
  Cert.Spec.hidden (R := 1000000) (V c main_arg0) (V c main_arg2) (fun q => (V c main_v0 : S1x128.Idx → EReal) (ix2 (0 : Fin 1) q))

/-- layer 1 of the blocks at point t, at an index of the block, is layer 1 of the whole arrays at the index 8000·t rows below. -/
theorem block_eq (c : Dev nD) (t : Fin cfg0.N) (y : S8000x128.Idx) (i : S1000000x128.Idx)
    (h0 : (i 0).val = t.val * 8000 + (y 0).val) (h1 : (i 1).val = (y 1).val) :
    Cert.Spec.hidden (R := 8000) (iblk0 V c 0 t : Vec Ideal S8000x128 .f32) (iblk0 V c 1 t : Vec Ideal S128x128 .f32)
      (fun q => (iblk0 V c 2 t : Vec Ideal S1x128 .f32) (ix2 (0 : Fin 1) q)) y = result V c i := by
  obtain ⟨p, q, rfl⟩ : ∃ (p : Fin 8000) (q : Fin 128), y = ix2 p q := ⟨y 0, y 1, eq_ix2 y⟩
  obtain ⟨p', q', rfl⟩ : ∃ (p' : Fin 1000000) (q' : Fin 128), i = ix2 p' q' := ⟨i 0, i 1, eq_ix2 i⟩
  obtain rfl : q' = q := Fin.ext h1
  show Cert.Spec.hiddenAt _ _ _ p q' = Cert.Spec.hiddenAt _ _ _ p' q'
  refine Cert.Spec.hiddenAt_congr _ _ _ _ _ _ p p' q' (fun k => ?_) (fun k => ?_) ?_
  · exact xblk_apply V c t (ix2 p k) (ix2 p' k) h0 rfl
  · exact wblk_apply V c t (ix2 k q')
  · exact bblk_apply V c t (ix2 (0 : Fin 1) q')

/-- What point t writes back is block t of `result`. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S8000x128) hz, View.ld_unit_zero (S := S128x128) hz, View.ld_unit_zero (S := S1x128) hz]
  rw [Cert.KernelIdeal.Payload.pay0_eq]
  obtain ⟨-, -, -, -, -, -, e0, e1⟩ := idx_facts t
  funext j
  show Cert.Spec.hidden (R := 8000) (iblk0 V c 0 t : Vec Ideal S8000x128 .f32) (iblk0 V c 1 t : Vec Ideal S128x128 .f32)
      (fun q => (iblk0 V c 2 t : Vec Ideal S1x128 .f32) (ix2 (0 : Fin 1) q)) j
    = result V c (((cfg0.win 3).blk t).view.emb j)
  refine block_eq V c t j _ ?_ ?_
  · show win0_3.index t (0 : Fin 2) * 8000 + 1 * (j 0).val = _; rw [e0]; omega
  · show win0_3.index t (1 : Fin 2) * 128 + 1 * (j 1).val = _; rw [e1]; omega

/-- Every row of the output is in some point's block. -/
theorem covered (i : S1000000x128.Idx) : ∃ t : Fin cfg0.N, (cfg0.win 3).flush t = true ∧ i ∈ ((cfg0.win 3).blk t).view.set := by
  have hi0 : (i 0).val < 1000000 := (i 0).isLt
  have hi1 : (i 1).val < 128 := (i 1).isLt
  have hN : cfg0.N = 125 := N_0
  have hlt : (i 0).val / 8000 < cfg0.N := by rw [hN]; omega
  obtain ⟨t, ht⟩ : ∃ t : Fin cfg0.N, t.val = (i 0).val / 8000 := ⟨⟨_, hlt⟩, rfl⟩
  refine ⟨t, flush0_3 t, ?_⟩
  obtain ⟨-, -, -, -, -, -, e0, e1⟩ := idx_facts t
  show i ∈ ((View.whole main_v1).slice (win0_3.rect t)).set
  rw [View.set_slice_whole, Rect.mem_set_unit]
  intro a
  match a with
  | ⟨0, _⟩ =>
    show win0_3.index t (0 : Fin 2) * 8000 ≤ (i 0).val ∧ (i 0).val < win0_3.index t (0 : Fin 2) * 8000 + 8000
    rw [e0, ht]; omega
  | ⟨1, _⟩ =>
    show win0_3.index t (1 : Fin 2) * 128 ≤ (i 1).val ∧ (i 1).val < win0_3.index t (1 : Fin 2) * 128 + 128
    rw [e1]; omega

/-- The output array after the region. -/
theorem final (c : Dev nD) : (dat0 V c).arrAt 3 cfg0.N = result V c :=
  (dat0 V c).arrAt_eq_of_cover 3 (result V c) (fun t _ => flushed_eq V c t) covered

end Cert.KernelIdeal.Region0

end
-- ==== Proof.KRegion1.lean ====
/-
  Region 2 of the kernel program (the second dense layer), from blocks to the whole array.

  Grid point t loads rows 8000·t … 8000·t + 7999 of the aggregated array, all of W2 and the one bias row, and writes rows
  8000·t … 8000·t + 7999 of the output.  What it writes is layer 2 of the loaded blocks, and layer 2 at a row
  depends on that row of the aggregated array only; so block t of the output is block t of layer 2 of the whole arrays.  The 125
  blocks tile the 1,000,000 rows, so the output array ends holding layer 2 of the arrays the region was entered with.
-/
import proofs.«155397_j9234179686641_1_alg».proof.Proof.Gen.KernelIdeal.Frame
import proofs.«155397_j9234179686641_1_alg».proof.Proof.KPayload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the weight and bias windows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row window's block at point t is rows 8000·t … of its array. -/
theorem xblk_apply (c : Dev nD) (t : Fin cfg1.N) (y : S8000x128.Idx) (i : S1000000x128.Idx)
    (h0 : (i 0).val = t.val * 8000 + (y 0).val) (h1 : (i 1).val = (y 1).val) :
    (iblk1 V c 0 t : Vec Ideal S8000x128 .f32) y = (V c main_v38 : S1000000x128.Idx → EReal) i := by
  obtain ⟨e0, e1, -⟩ := idx_facts t
  unfold iblk1
  rw [View.read_apply]
  show V c main_v38 _ = V c main_v38 _
  refine congrArg _ (funext fun a => Fin.ext ?_)
  match a with
  | ⟨0, _⟩ => show win1_0.index t (0 : Fin 2) * 8000 + 1 * (y 0).val = (i 0).val; rw [e0, h0]; omega
  | ⟨1, _⟩ => show win1_0.index t (1 : Fin 2) * 128 + 1 * (y 1).val = (i 1).val; rw [e1, h1]; omega

/-- The weight window's block is the whole weight array at every point. -/
theorem wblk_apply (c : Dev nD) (t : Fin cfg1.N) (y : S128x16.Idx) :
    (iblk1 V c 1 t : Vec Ideal S128x16 .f32) y = (V c main_arg4 : S128x16.Idx → EReal) y := by
  obtain ⟨-, -, e0, e1, -⟩ := idx_facts t
  unfold iblk1
  rw [View.read_apply]
  show V c main_arg4 _ = V c main_arg4 _
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 16 + 1 * (y 1).val = (y 1).val; rw [e1]; omega

/-- The bias window's block is the whole one-row bias at every point. -/
theorem bblk_apply (c : Dev nD) (t : Fin cfg1.N) (y : S1x16.Idx) :
    (iblk1 V c 2 t : Vec Ideal S1x16 .f32) y = (V c main_v39 : S1x16.Idx → EReal) y := by
  obtain ⟨-, -, -, -, e0, e1, -⟩ := idx_facts t
  unfold iblk1
  rw [View.read_apply]
  show V c main_v39 _ = V c main_v39 _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 16 + 1 * (y 1).val = (y 1).val; rw [e1]; omega

/-- The whole array the region leaves: layer 2 of the arrays it was entered with. -/
abbrev result (c : Dev nD) : S1000000x16.Idx → EReal :=
  Cert.Spec.logits (R := 1000000) (V c main_v38) (V c main_arg4) (fun q => (V c main_v39 : S1x16.Idx → EReal) (ix2 (0 : Fin 1) q))

/-- layer 2 of the blocks at point t, at an index of the block, is layer 2 of the whole arrays at the index 8000·t rows below. -/
theorem block_eq (c : Dev nD) (t : Fin cfg1.N) (y : S8000x16.Idx) (i : S1000000x16.Idx)
    (h0 : (i 0).val = t.val * 8000 + (y 0).val) (h1 : (i 1).val = (y 1).val) :
    Cert.Spec.logits (R := 8000) (iblk1 V c 0 t : Vec Ideal S8000x128 .f32) (iblk1 V c 1 t : Vec Ideal S128x16 .f32)
      (fun q => (iblk1 V c 2 t : Vec Ideal S1x16 .f32) (ix2 (0 : Fin 1) q)) y = result V c i := by
  obtain ⟨p, q, rfl⟩ : ∃ (p : Fin 8000) (q : Fin 16), y = ix2 p q := ⟨y 0, y 1, eq_ix2 y⟩
  obtain ⟨p', q', rfl⟩ : ∃ (p' : Fin 1000000) (q' : Fin 16), i = ix2 p' q' := ⟨i 0, i 1, eq_ix2 i⟩
  obtain rfl : q' = q := Fin.ext h1
  show Cert.Spec.logitsAt _ _ _ p q' = Cert.Spec.logitsAt _ _ _ p' q'
  refine Cert.Spec.logitsAt_congr _ _ _ _ _ _ p p' q' (fun k => ?_) (fun k => ?_) ?_
  · exact xblk_apply V c t (ix2 p k) (ix2 p' k) h0 rfl
  · exact wblk_apply V c t (ix2 k q')
  · exact bblk_apply V c t (ix2 (0 : Fin 1) q')

/-- What point t writes back is block t of `result`. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S8000x128) hz, View.ld_unit_zero (S := S128x16) hz, View.ld_unit_zero (S := S1x16) hz]
  rw [Cert.KernelIdeal.Payload.pay1_eq]
  obtain ⟨-, -, -, -, -, -, e0, e1⟩ := idx_facts t
  funext j
  show Cert.Spec.logits (R := 8000) (iblk1 V c 0 t : Vec Ideal S8000x128 .f32) (iblk1 V c 1 t : Vec Ideal S128x16 .f32)
      (fun q => (iblk1 V c 2 t : Vec Ideal S1x16 .f32) (ix2 (0 : Fin 1) q)) j
    = result V c (((cfg1.win 3).blk t).view.emb j)
  refine block_eq V c t j _ ?_ ?_
  · show win1_3.index t (0 : Fin 2) * 8000 + 1 * (j 0).val = _; rw [e0]; omega
  · show win1_3.index t (1 : Fin 2) * 16 + 1 * (j 1).val = _; rw [e1]; omega

/-- Every row of the output is in some point's block. -/
theorem covered (i : S1000000x16.Idx) : ∃ t : Fin cfg1.N, (cfg1.win 3).flush t = true ∧ i ∈ ((cfg1.win 3).blk t).view.set := by
  have hi0 : (i 0).val < 1000000 := (i 0).isLt
  have hi1 : (i 1).val < 16 := (i 1).isLt
  have hN : cfg1.N = 125 := N_1
  have hlt : (i 0).val / 8000 < cfg1.N := by rw [hN]; omega
  obtain ⟨t, ht⟩ : ∃ t : Fin cfg1.N, t.val = (i 0).val / 8000 := ⟨⟨_, hlt⟩, rfl⟩
  refine ⟨t, flush1_3 t, ?_⟩
  obtain ⟨-, -, -, -, -, -, e0, e1⟩ := idx_facts t
  show i ∈ ((View.whole main_v40).slice (win1_3.rect t)).set
  rw [View.set_slice_whole, Rect.mem_set_unit]
  intro a
  match a with
  | ⟨0, _⟩ =>
    show win1_3.index t (0 : Fin 2) * 8000 ≤ (i 0).val ∧ (i 0).val < win1_3.index t (0 : Fin 2) * 8000 + 8000
    rw [e0, ht]; omega
  | ⟨1, _⟩ =>
    show win1_3.index t (1 : Fin 2) * 16 ≤ (i 1).val ∧ (i 1).val < win1_3.index t (1 : Fin 2) * 16 + 16
    rw [e1]; omega

/-- The output array after the region. -/
theorem final (c : Dev nD) : (dat1 V c).arrAt 3 cfg1.N = result V c :=
  (dat1 V c).arrAt_eq_of_cover 3 (result V c) (fun t _ => flushed_eq V c t) covered

end Cert.KernelIdeal.Region1

end
-- ==== Proof.Glue.lean ====
/-
  The aggregation both programs run between the two dense layers, as one function of the hidden array and the edge list.

  seg      = column 0 of the edge list;  an index below zero is wrapped by adding the extent, as a Python index is
  firstOcc = for each value v, the least position i with seg(i) = v (1000001 where v does not occur)   [scatter-min]
  order    = the positions sorted by firstOcc, stably                                                    [argsort]
  rank     = the inverse placement: rank(order(i)) = i                                                   [scatter-set]
  idx      = rank gathered at seg, then gathered at seg once more                                        [two gathers]
  agg(h)   = the rows of h added into the rows idx names                                                 [scatter-add]

  Neither program's certificate needs to know what these operations compute: both apply the same operations to the same
  edge list, so the aggregation enters the proof as ONE function `agg`, applied on each side to that side's hidden array.
  The operations' dimension records and side conditions are a parameter, so that each program instantiates the function
  with its own printed records.
-/
import Idealize.ShloMosaic.Lib.StableHlo
import Idealize.ShloMosaic.PureOps

noncomputable section

namespace Cert.Glue

open Idealize.ShloMosaic

abbrev SE : Shape := ⟨2, ![1000000, 2]⟩
abbrev SN1 : Shape := ⟨2, ![1000000, 1]⟩
abbrev SN : Shape := ⟨1, ![1000000]⟩
abbrev SH : Shape := ⟨2, ![1000000, 128]⟩
abbrev S0 : Shape := ⟨0, ![]⟩

/-- The dimension records, the comparator and the shape side conditions the operations are printed with. -/
structure Recs where
  sl : SE.Slices ![0, 0] SN1
  sc : SN1.ShapeCasts SN
  b0 : S0.BroadcastsInDim SN (![] : Fin 0 → Fin SN.rank)
  b1 : SN.BroadcastsInDim SN1 (![0] : Fin 1 → Fin SN1.rank)
  bh : S0.BroadcastsInDim SH (![] : Fin 0 → Fin SH.rank)
  scat : ScatterDims SN SN1 SN
  gath : GatherDims SN SN1 SN
  scatH : ScatterDims SH SN1 SH
  cmp : BitVec 32 × BitVec 32 → BitVec 32 × BitVec 32 → BitVec 1

variable {F : FTy → Type} [FloatOps F] (R : Recs)

/-- Column 0 of the edge list. -/
def seg (e : (⟨SE, .i32⟩ : BufTy).Contents (Elt F)) : (⟨SN, .i32⟩ : BufTy).Contents (Elt F) :=
  shapeCast SN (extractStridedSlice SN1 ![0, 0] e R.sl) R.sc

/-- A negative index wrapped by the extent. -/
def wrap (s : (⟨SN, .i32⟩ : BufTy).Contents (Elt F)) : (⟨SN, .i32⟩ : BufTy).Contents (Elt F) :=
  select (cmpi .slt s (broadcastInDim SN ![] R.b0 (constantI S0 32 0#32))) (addi s (broadcastInDim SN ![] R.b0 (constantI S0 32 1000000#32))) s

/-- An index vector as the one-column matrix the scatters and gathers take. -/
def col (s : (⟨SN, .i32⟩ : BufTy).Contents (Elt F)) : (⟨SN1, .i32⟩ : BufTy).Contents (Elt F) :=
  broadcastInDim SN1 ![0] R.b1 s

/-- The first position at which each value occurs. -/
def firstOcc (e : (⟨SE, .i32⟩ : BufTy).Contents (Elt F)) : (⟨SN, .i32⟩ : BufTy).Contents (Elt F) :=
  Host.scatter R.scat IntOp.minsi (broadcastInDim SN ![] R.b0 (constantI S0 32 1000001#32)) (col (F := F) R (wrap (F := F) R (seg (F := F) R e))) (iotaInDim SN 32 0)

/-- The positions in the order of first occurrence. -/
def order (e : (⟨SE, .i32⟩ : BufTy).Contents (Elt F)) : (⟨SN, .i32⟩ : BufTy).Contents (Elt F) :=
  (Host.sort2 SN 0 R.cmp (firstOcc (F := F) R e) (iotaInDim SN 32 0)).2

/-- The place of each value in that order. -/
def rank (e : (⟨SE, .i32⟩ : BufTy).Contents (Elt F)) : (⟨SN, .i32⟩ : BufTy).Contents (Elt F) :=
  Host.scatter R.scat (fun _ b => b) (broadcastInDim SN ![] R.b0 (constantI S0 32 0#32)) (col (F := F) R (wrap (F := F) R (order (F := F) R e))) (iotaInDim SN 32 0)

/-- The segment each row is added into. -/
def idx (e : (⟨SE, .i32⟩ : BufTy).Contents (Elt F)) : (⟨SN, .i32⟩ : BufTy).Contents (Elt F) :=
  Host.gather R.gath (Host.gather R.gath (rank (F := F) R e) (col (F := F) R (wrap (F := F) R (seg (F := F) R e)))) (col (F := F) R (wrap (F := F) R (seg (F := F) R e)))

/-- The hidden rows added segment by segment. -/
def agg (h : (⟨SH, .f32⟩ : BufTy).Contents (Elt F)) (e : (⟨SE, .i32⟩ : BufTy).Contents (Elt F)) : (⟨SH, .f32⟩ : BufTy).Contents (Elt F) :=
  Host.scatterAdd R.scatH (broadcastInDim SH ![] R.bh (constant S0 .f32 0x00000000#32)) (col (F := F) R (idx (F := F) R e)) h

end Cert.Glue

end
-- ==== Proof.KHost.lean ====
/-
  The host operations of the kernel program, read as values.

  Before region 1 the bias vector b1 is recast as a one-row matrix; between the regions the hidden array is aggregated
  (`Glue.agg`, of region 1's output array and the edge list) and b2 is recast likewise.  No host operation and no region
  writes an argument array, so each argument is found at its launch contents wherever it is read.
  Each stretch of operations is read once, from an arbitrary starting valuation; the stretches are then chained.
-/
import proofs.«155397_j9234179686641_1_alg».proof.Proof.Gen.KernelIdeal.Frame
import proofs.«155397_j9234179686641_1_alg».proof.Proof.Glue
import Idealize.ShloMosaic.Lib.StableHlo.Run
import Idealize.ShloMosaic.Lib.Pipeline.Value
import Idealize.ShloMosaic.Lib.ValueIdx

set_option maxRecDepth 16384

noncomputable section

namespace Cert.KernelIdeal.HostSide

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]

/-- The records and side conditions the kernel program's aggregation is printed with. -/
def recs : Cert.Glue.Recs :=
  ⟨slices_S1000000x2_S1000000x1_0_0, shapeCasts_S1000000x1_S1000000, bcast_S_S1000000, bcast_S1000000_S1000000x1_0, bcast_S_S1000000x128,
   scatter_S1000000_S1000000x1_S1000000_n_0_0_1, gather_S1000000_S1000000x1_S1000000_n_0_n_n_0_1_1,
   scatter_S1000000x128_S1000000x1_S1000000x128_1_0_0_1, comparator_i32_i32_d0⟩

/-! ## The stretches, each from an arbitrary valuation -/

section Stretches
variable (Z : Valuation τ sig (Elt F))

/-- The stretch before region 1 recasts the bias and touches nothing else. -/
theorem s0_x : StableHlo.after hostOps0 Z (Proc.devRef .tc main_arg0) = Z (Proc.devRef .tc main_arg0) := by after_results_simp
theorem s0_e : StableHlo.after hostOps0 Z (Proc.devRef .tc main_arg1) = Z (Proc.devRef .tc main_arg1) := by after_results_simp
theorem s0_w : StableHlo.after hostOps0 Z (Proc.devRef .tc main_arg2) = Z (Proc.devRef .tc main_arg2) := by after_results_simp
theorem s0_b5 : StableHlo.after hostOps0 Z (Proc.devRef .tc main_arg5) = Z (Proc.devRef .tc main_arg5) := by after_results_simp
theorem s0_b (q : Fin 128) :
    (StableHlo.after hostOps0 Z (Proc.devRef .tc main_v0) : S1x128.Idx → Elt F .f32) (ix2 (0 : Fin 1) q)
      = (Z (Proc.devRef .tc main_arg3) : S128.Idx → Elt F .f32) (ix1 q) := by
  after_results_simp
  exact shapeCast_apply _ shapeCasts_S128_S1x128 (ix2 (0 : Fin 1) q) (ix1 q) (by
    rw [Shape.rowMajor_val_one, Shape.rowMajor_val_two]
    show q.val = (0 : Nat) * 128 + q.val
    omega)

/-- The first stretch after region 1: column 0 of the edge list, the positions, and the first-occurrence table. -/
theorem s1_seg : StableHlo.after hostOps1 Z (Proc.devRef .tc main_v3) = Cert.Glue.seg (F := F) recs (Z (Proc.devRef .tc main_arg1)) := by
  after_results_simp <;> rfl
theorem s1_iota : StableHlo.after hostOps1 Z (Proc.devRef .tc main_v4) = iotaInDim Cert.Glue.SN 32 0 := by
  after_results_simp <;> rfl
theorem s1_first : StableHlo.after hostOps1 Z (Proc.devRef .tc main_v12) = Cert.Glue.firstOcc (F := F) recs (Z (Proc.devRef .tc main_arg1)) := by
  after_results_simp <;> rfl
theorem s1_h : StableHlo.after hostOps1 Z (Proc.devRef .tc main_v1) = Z (Proc.devRef .tc main_v1) := by after_results_simp
theorem s1_b : StableHlo.after hostOps1 Z (Proc.devRef .tc main_arg5) = Z (Proc.devRef .tc main_arg5) := by after_results_simp

/-- The sort: the positions ordered by the first-occurrence table. -/
theorem s2_order : StableHlo.after hostOps1_1 Z (Proc.devRef .tc main_v13)
    = (Host.sort2 Cert.Glue.SN 0 (recs).cmp (Z (Proc.devRef .tc main_v12)) (iotaInDim Cert.Glue.SN 32 0)).2 := by
  after_results_simp
  simp only [TRef.ofBuf, TRef.toBuf, cast_eq]
  rfl
theorem s2_seg : StableHlo.after hostOps1_1 Z (Proc.devRef .tc main_v3) = Z (Proc.devRef .tc main_v3) := by after_results_simp
theorem s2_iota : StableHlo.after hostOps1_1 Z (Proc.devRef .tc main_v4) = Z (Proc.devRef .tc main_v4) := by after_results_simp
theorem s2_h : StableHlo.after hostOps1_1 Z (Proc.devRef .tc main_v1) = Z (Proc.devRef .tc main_v1) := by after_results_simp
theorem s2_b : StableHlo.after hostOps1_1 Z (Proc.devRef .tc main_arg5) = Z (Proc.devRef .tc main_arg5) := by after_results_simp

set_option maxHeartbeats 1000000 in
/-- The last stretch before region 2: the ranks, the two gathers and the scatter-add, from the sorted positions. -/
theorem s3_agg : StableHlo.after hostOps1_2 Z (Proc.devRef .tc main_v38)
    = Host.scatterAdd (recs).scatH (broadcastInDim Cert.Glue.SH ![] (recs).bh (constant Cert.Glue.S0 .f32 0x00000000#32))
        (Cert.Glue.col (F := F) recs
          (Host.gather (recs).gath
            (Host.gather (recs).gath
              (Host.scatter (recs).scat (fun _ b => b) (broadcastInDim Cert.Glue.SN ![] (recs).b0 (constantI Cert.Glue.S0 32 0#32))
                (Cert.Glue.col (F := F) recs (Cert.Glue.wrap (F := F) recs (Z (Proc.devRef .tc main_v13)))) (Z (Proc.devRef .tc main_v4)))
              (Cert.Glue.col (F := F) recs (Cert.Glue.wrap (F := F) recs (Z (Proc.devRef .tc main_v3)))))
            (Cert.Glue.col (F := F) recs (Cert.Glue.wrap (F := F) recs (Z (Proc.devRef .tc main_v3))))))
        (Z (Proc.devRef .tc main_v1)) := by
  after_results_simp <;> rfl

theorem s3_b (q : Fin 16) :
    (StableHlo.after hostOps1_2 Z (Proc.devRef .tc main_v39) : S1x16.Idx → Elt F .f32) (ix2 (0 : Fin 1) q)
      = (Z (Proc.devRef .tc main_arg5) : S16.Idx → Elt F .f32) (ix1 q) := by
  after_results_simp
  exact shapeCast_apply _ shapeCasts_S16_S1x16 (ix2 (0 : Fin 1) q) (ix1 q) (by
    rw [Shape.rowMajor_val_one, Shape.rowMajor_val_two]
    show q.val = (0 : Nat) * 16 + q.val
    omega)

end Stretches

variable (m : (ℓ : Loc nD τ sig) → Buf (Elt F) ℓ) (ρ : Dev nD → PrngReg)

/-! ## Before region 1 -/

theorem entry0_x (c : Dev nD) : V1 m ρ c main_arg0 = m ((c : Thread nD τ).loc main_arg0) := s0_x (W0 m ρ c)
theorem entry0_w (c : Dev nD) : V1 m ρ c main_arg2 = m ((c : Thread nD τ).loc main_arg2) := s0_w (W0 m ρ c)
/-- The one-row bias of region 1 reads the bias vector at the column. -/
theorem entry0_b (c : Dev nD) (q : Fin 128) :
    (V1 m ρ c main_v0 : S1x128.Idx → Elt F .f32) (ix2 (0 : Fin 1) q) = (m ((c : Thread nD τ).loc main_arg3) : S128.Idx → Elt F .f32) (ix1 q) :=
  s0_b (W0 m ρ c) q

/-! ## Between the regions -/

/-- The edge list is still the launch's when the aggregation reads it. -/
theorem mid_e (c : Dev nD) : W2 m ρ c (Proc.devRef .tc main_arg1) = m ((c : Thread nD τ).loc main_arg1) :=
  (W2_of_ne m ρ c main_arg1 (by decide)).trans (s0_e (W0 m ρ c))

/-- Region 2's first operand is the aggregation of region 1's output array. -/
theorem entry1_a (c : Dev nD) :
    V5 m ρ c main_v38 = Cert.Glue.agg (F := F) recs (W2 m ρ c (Proc.devRef .tc main_v1)) (W2 m ρ c (Proc.devRef .tc main_arg1)) := by
  have f3 : W3 m ρ c (Proc.devRef .tc main_v3) = Cert.Glue.seg (F := F) recs (W2 m ρ c (Proc.devRef .tc main_arg1)) := s1_seg (W2 m ρ c)
  have f4 : W3 m ρ c (Proc.devRef .tc main_v4) = iotaInDim Cert.Glue.SN 32 0 := s1_iota (W2 m ρ c)
  have f12 : W3 m ρ c (Proc.devRef .tc main_v12) = Cert.Glue.firstOcc (F := F) recs (W2 m ρ c (Proc.devRef .tc main_arg1)) := s1_first (W2 m ρ c)
  have f1 : W3 m ρ c (Proc.devRef .tc main_v1) = W2 m ρ c (Proc.devRef .tc main_v1) := s1_h (W2 m ρ c)
  have g13 : W4 m ρ c (Proc.devRef .tc main_v13) = Cert.Glue.order (F := F) recs (W2 m ρ c (Proc.devRef .tc main_arg1)) :=
    (s2_order (W3 m ρ c)).trans (by rw [f12]; rfl)
  have g3 : W4 m ρ c (Proc.devRef .tc main_v3) = Cert.Glue.seg (F := F) recs (W2 m ρ c (Proc.devRef .tc main_arg1)) := (s2_seg (W3 m ρ c)).trans f3
  have g4 : W4 m ρ c (Proc.devRef .tc main_v4) = iotaInDim Cert.Glue.SN 32 0 := (s2_iota (W3 m ρ c)).trans f4
  have g1 : W4 m ρ c (Proc.devRef .tc main_v1) = W2 m ρ c (Proc.devRef .tc main_v1) := (s2_h (W3 m ρ c)).trans f1
  refine (s3_agg (W4 m ρ c)).trans ?_
  rw [g13, g3, g4, g1]
  rfl

theorem entry1_w (c : Dev nD) : V5 m ρ c main_arg4 = m ((c : Thread nD τ).loc main_arg4) :=
  ((W6_arr m ρ c 1).trans (((dat1 (V5 m ρ) c).arrAt_in 1 rfl _).trans (A_eq1 (V5 m ρ) c 1))).symm.trans (W6_main_arg4 m ρ c)

/-- The one-row bias of region 2 reads the bias vector at the column. -/
theorem entry1_b (c : Dev nD) (q : Fin 16) :
    (V5 m ρ c main_v39 : S1x16.Idx → Elt F .f32) (ix2 (0 : Fin 1) q) = (m ((c : Thread nD τ).loc main_arg5) : S16.Idx → Elt F .f32) (ix1 q) := by
  have hb : W4 m ρ c (Proc.devRef .tc main_arg5) = m ((c : Thread nD τ).loc main_arg5) :=
    (s2_b (W3 m ρ c)).trans ((s1_b (W2 m ρ c)).trans ((W2_of_ne m ρ c main_arg5 (by decide)).trans (s0_b5 (W0 m ρ c))))
  refine (s3_b (W4 m ρ c) q).trans ?_
  rw [hb]

end Cert.KernelIdeal.HostSide

end
-- ==== Proof.KValue.lean ====
/-
  The kernel program's result array, as a value.

  The run leaves the result buffer at what region 2 writes back (`KRun`).  Region 2 leaves layer 2 of the arrays it
  was entered with (`KRegion1`); its first operand was entered holding the aggregate of region 1's output (`KHost`), and
  region 1 leaves layer 1 of x, W1 and the bias row (`KRegion0`); the bias rows read the bias vectors and every
  argument is found at its launch contents (`KHost`).  Chained: the result is layer 2 of the aggregate of layer 1.
-/
import proofs.«155397_j9234179686641_1_alg».proof.Proof.KRun
import proofs.«155397_j9234179686641_1_alg».proof.Proof.KRegion0
import proofs.«155397_j9234179686641_1_alg».proof.Proof.KRegion1
import proofs.«155397_j9234179686641_1_alg».proof.Proof.KHost

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

theorem hidden_congr3 {R : Nat} {x x' : (⟨2, ![R, 128]⟩ : Shape).Idx → EReal} {w w' : (⟨2, ![128, 128]⟩ : Shape).Idx → EReal} {b b' : Fin 128 → EReal}
    (hx : x = x') (hw : w = w') (hb : b = b') : Cert.Spec.hidden x w b = Cert.Spec.hidden x' w' b' := by
  subst hx hw hb; rfl

theorem logits_congr3 {R : Nat} {a a' : (⟨2, ![R, 128]⟩ : Shape).Idx → EReal} {w w' : (⟨2, ![128, 16]⟩ : Shape).Idx → EReal} {b b' : Fin 16 → EReal}
    (ha : a = a') (hw : w = w') (hb : b = b') : Cert.Spec.logits a w b = Cert.Spec.logits a' w' b' := by
  subst ha hw hb; rfl

/-- The hidden array: layer 1 of the launch's x, W1 and b1. -/
abbrev hiddenOf (c : Dev nD) : S1000000x128.Idx → EReal :=
  Cert.Spec.hidden (R := 1000000) (m ((c.tc : Thread nD τ).loc main_arg0)) (m ((c.tc : Thread nD τ).loc main_arg2))
    (fun q => (m ((c.tc : Thread nD τ).loc main_arg3) : S128.Idx → EReal) (ix1 q))

/-- The kernel program's result as a function of the launch memory: layer 2 of the aggregate of layer 1. -/
def result (c : Dev nD) : S1000000x16.Idx → EReal :=
  Cert.Spec.logits (R := 1000000)
    (Cert.Glue.agg (F := Ideal) Cert.KernelIdeal.HostSide.recs (hiddenOf m c) (m ((c.tc : Thread nD τ).loc main_arg1)))
    (m ((c.tc : Thread nD τ).loc main_arg4)) (fun q => (m ((c.tc : Thread nD τ).loc main_arg5) : S16.Idx → EReal) (ix1 q))

/-- Region 1's output array is the hidden array. -/
theorem region0_value (c : Dev nD) : (dat0 (V1 m ρ) c).arrAt 3 cfg0.N = hiddenOf m c := by
  rw [Cert.KernelIdeal.Region0.final (V1 m ρ) c]
  show Cert.Spec.hidden (R := 1000000) (V1 m ρ c main_arg0) (V1 m ρ c main_arg2) (fun q => (V1 m ρ c main_v0 : S1x128.Idx → EReal) (ix2 (0 : Fin 1) q)) = _
  exact hidden_congr3 (Cert.KernelIdeal.HostSide.entry0_x m ρ c) (Cert.KernelIdeal.HostSide.entry0_w m ρ c)
    (funext fun q => Cert.KernelIdeal.HostSide.entry0_b m ρ c q)

/-- Region 2 is entered with the aggregate of the hidden array. -/
theorem region1_entry (c : Dev nD) :
    V5 m ρ c main_v38 = Cert.Glue.agg (F := Ideal) Cert.KernelIdeal.HostSide.recs (hiddenOf m c) (m ((c.tc : Thread nD τ).loc main_arg1)) := by
  rw [Cert.KernelIdeal.HostSide.entry1_a, W2_hidden, region0_value, Cert.KernelIdeal.HostSide.mid_e]

/-- The last boundary's contents at the result buffer. -/
theorem W6_value (c : Dev nD) : W6 m ρ c (Proc.devRef .tc main_v40) = result m c := by
  rw [W6_result, Cert.KernelIdeal.Region1.final (V5 m ρ) c]
  show Cert.Spec.logits (R := 1000000) (V5 m ρ c main_v38) (V5 m ρ c main_arg4) (fun q => (V5 m ρ c main_v39 : S1x16.Idx → EReal) (ix2 (0 : Fin 1) q)) = _
  exact logits_congr3 (region1_entry m ρ c) (Cert.KernelIdeal.HostSide.entry1_w m ρ c)
    (funext fun q => Cert.KernelIdeal.HostSide.entry1_b m ρ c q)

/-- Every weakly fair execution of the idealized kernel program terminates with the result buffer at `result` and the
    arguments unchanged. -/
theorem run : θ_run defs (onTc (τ := τ) (main (F := Ideal))) ⟨m, fun _ => 0, ρ⟩ (fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W6_value m ρ c), (h c).2⟩) (run_result m ρ)

end Cert.KernelIdeal.KValue

end
-- ==== Proof.RefValue.lean ====
/-
  The reference program's result array, as a value.

  The reference is sixty-four host operations: a dense layer (a matrix product, the bias laid along the rows, a
  maximum with zero), the aggregation (`Glue.agg`, the same operations as the kernel program's), and a second dense
  layer on the rectified aggregate.  Its run leaves every buffer at the fold of the operations over the launch memory.
  The operations are read in five stretches — layer 1 (7 operations), the first-occurrence table (14), the sort (3),
  the ranks, gathers and scatter-add (33), layer 2 (7) — each from an arbitrary starting valuation, and then chained.
  At the extended reals each dense stretch is the layer's function of `Spec`: the host's matrix product is the sum over
  the contracted axis, and the bias broadcast twice reads the bias vector at the column.
-/
import proofs.«155397_j9234179686641_1_alg».proof.Proof.RefRun
import proofs.«155397_j9234179686641_1_alg».proof.Proof.Glue
import proofs.«155397_j9234179686641_1_alg».proof.Proof.Spec
import proofs.«155397_j9234179686641_1_alg».proof.Proof.LibPlainDot
import Idealize.ShloMosaic.Lib.StableHlo.Run
import Idealize.ShloMosaic.Lib.Pipeline.Frame
import Idealize.ShloMosaic.Lib.Pipeline.Value
import Idealize.ShloMosaic.Lib.ValueIdx

set_option maxRecDepth 16384

noncomputable section

namespace Cert.ReferenceIdeal.RefValue

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.ValueP

variable {F : FTy → Type} [FloatOps F]

/-- The records and side conditions the reference's aggregation is printed with. -/
def recs : Cert.Glue.Recs :=
  ⟨slices_S1000000x2_S1000000x1_0_0, shapeCasts_S1000000x1_S1000000, bcast_S_S1000000, bcast_S1000000_S1000000x1_0, bcast_S_S1000000x128,
   scatter_S1000000_S1000000x1_S1000000_n_0_0_1, gather_S1000000_S1000000x1_S1000000_n_0_n_n_0_1_1,
   scatter_S1000000x128_S1000000x1_S1000000x128_1_0_0_1, comparator_i32_i32_d0⟩

/-- The first dense stage as the reference's operations spell it. -/
def hiddenR (x : (⟨S1000000x128, .f32⟩ : BufTy).Contents (Elt F)) (w : (⟨S128x128, .f32⟩ : BufTy).Contents (Elt F))
    (b : (⟨S128, .f32⟩ : BufTy).Contents (Elt F)) : (⟨S1000000x128, .f32⟩ : BufTy).Contents (Elt F) :=
  maximumf
    (addf (Host.dotGeneral dot_S1000000x128_S128x128_S1000000x128_1_0_0_1_n_n none x w)
      (broadcastInDim S1000000x128 ![0, 1] bcast_S1x128_S1000000x128_0_1 (broadcastInDim S1x128 ![1] bcast_S128_S1x128_1 b)))
    (broadcastInDim S1000000x128 ![] bcast_S_S1000000x128 (constant S_ .f32 0x00000000#32))

/-- The second dense stage as the reference's operations spell it. -/
def outR (a : (⟨S1000000x128, .f32⟩ : BufTy).Contents (Elt F)) (w : (⟨S128x16, .f32⟩ : BufTy).Contents (Elt F))
    (b : (⟨S16, .f32⟩ : BufTy).Contents (Elt F)) : (⟨S1000000x16, .f32⟩ : BufTy).Contents (Elt F) :=
  addf
    (Host.dotGeneral dot_S1000000x128_S128x16_S1000000x16_1_0_0_1_n_n none
      (maximumf a (broadcastInDim S1000000x128 ![] bcast_S_S1000000x128 (constant S_ .f32 0x00000000#32))) w)
    (broadcastInDim S1000000x16 ![0, 1] bcast_S1x16_S1000000x16_0_1 (broadcastInDim S1x16 ![1] bcast_S16_S1x16_1 b))

/-! ## The five stretches of the operation list -/

abbrev opsA : List (HloOp τ sig (Elt F)) := (ops (F := F)).take 7
abbrev opsB : List (HloOp τ sig (Elt F)) := ((ops (F := F)).drop 7).take 14
abbrev opsC : List (HloOp τ sig (Elt F)) := ((ops (F := F)).drop 21).take 3
abbrev opsD : List (HloOp τ sig (Elt F)) := ((ops (F := F)).drop 24).take 33
abbrev opsE : List (HloOp τ sig (Elt F)) := (ops (F := F)).drop 57

theorem ops_split : (ops (F := F)) = opsA ++ (opsB ++ (opsC ++ (opsD ++ opsE))) := rfl

/-- Spells a stretch out as the literal list of its operations. -/
macro "open_stretch" : tactic =>
  `(tactic| simp only [opsA, opsB, opsC, opsD, opsE, ops, List.take, List.drop])

section Stretches
variable (Z : Valuation τ sig (Elt F))

/-- Layer 1's stretch. -/
theorem a_h : StableHlo.after opsA Z (Proc.devRef .tc main_v4) = hiddenR (F := F) (Z (Proc.devRef .tc main_arg0)) (Z (Proc.devRef .tc main_arg2)) (Z (Proc.devRef .tc main_arg3)) := by
  open_stretch
  after_results_simp
  simp only [TRef.ofBuf, TRef.toBuf, cast_eq]
  rfl
theorem a_e : StableHlo.after opsA Z (Proc.devRef .tc main_arg1) = Z (Proc.devRef .tc main_arg1) := by open_stretch; after_results_simp
theorem a_w : StableHlo.after opsA Z (Proc.devRef .tc main_arg4) = Z (Proc.devRef .tc main_arg4) := by open_stretch; after_results_simp
theorem a_b : StableHlo.after opsA Z (Proc.devRef .tc main_arg5) = Z (Proc.devRef .tc main_arg5) := by open_stretch; after_results_simp

/-- The stretch up to the first-occurrence table. -/
theorem b_seg : StableHlo.after opsB Z (Proc.devRef .tc main_v6) = Cert.Glue.seg (F := F) recs (Z (Proc.devRef .tc main_arg1)) := by
  open_stretch; after_results_simp <;> rfl
theorem b_iota : StableHlo.after opsB Z (Proc.devRef .tc main_v7) = iotaInDim Cert.Glue.SN 32 0 := by
  open_stretch; after_results_simp <;> rfl
theorem b_first : StableHlo.after opsB Z (Proc.devRef .tc main_v15) = Cert.Glue.firstOcc (F := F) recs (Z (Proc.devRef .tc main_arg1)) := by
  open_stretch; after_results_simp <;> rfl
theorem b_h : StableHlo.after opsB Z (Proc.devRef .tc main_v4) = Z (Proc.devRef .tc main_v4) := by open_stretch; after_results_simp
theorem b_w : StableHlo.after opsB Z (Proc.devRef .tc main_arg4) = Z (Proc.devRef .tc main_arg4) := by open_stretch; after_results_simp
theorem b_b : StableHlo.after opsB Z (Proc.devRef .tc main_arg5) = Z (Proc.devRef .tc main_arg5) := by open_stretch; after_results_simp

/-- The sort. -/
theorem c_order : StableHlo.after opsC Z (Proc.devRef .tc main_v16)
    = (Host.sort2 Cert.Glue.SN 0 (recs).cmp (Z (Proc.devRef .tc main_v15)) (iotaInDim Cert.Glue.SN 32 0)).2 := by
  open_stretch
  after_results_simp
  simp only [TRef.ofBuf, TRef.toBuf, cast_eq]
  rfl
theorem c_seg : StableHlo.after opsC Z (Proc.devRef .tc main_v6) = Z (Proc.devRef .tc main_v6) := by open_stretch; after_results_simp
theorem c_iota : StableHlo.after opsC Z (Proc.devRef .tc main_v7) = Z (Proc.devRef .tc main_v7) := by open_stretch; after_results_simp
theorem c_h : StableHlo.after opsC Z (Proc.devRef .tc main_v4) = Z (Proc.devRef .tc main_v4) := by open_stretch; after_results_simp
theorem c_w : StableHlo.after opsC Z (Proc.devRef .tc main_arg4) = Z (Proc.devRef .tc main_arg4) := by open_stretch; after_results_simp
theorem c_b : StableHlo.after opsC Z (Proc.devRef .tc main_arg5) = Z (Proc.devRef .tc main_arg5) := by open_stretch; after_results_simp

set_option maxHeartbeats 1000000 in
/-- The ranks, the two gathers and the scatter-add, from the sorted positions. -/
theorem d_agg : StableHlo.after opsD Z (Proc.devRef .tc main_v41)
    = Host.scatterAdd (recs).scatH (broadcastInDim Cert.Glue.SH ![] (recs).bh (constant Cert.Glue.S0 .f32 0x00000000#32))
        (Cert.Glue.col (F := F) recs
          (Host.gather (recs).gath
            (Host.gather (recs).gath
              (Host.scatter (recs).scat (fun _ b => b) (broadcastInDim Cert.Glue.SN ![] (recs).b0 (constantI Cert.Glue.S0 32 0#32))
                (Cert.Glue.col (F := F) recs (Cert.Glue.wrap (F := F) recs (Z (Proc.devRef .tc main_v16)))) (Z (Proc.devRef .tc main_v7)))
              (Cert.Glue.col (F := F) recs (Cert.Glue.wrap (F := F) recs (Z (Proc.devRef .tc main_v6)))))
            (Cert.Glue.col (F := F) recs (Cert.Glue.wrap (F := F) recs (Z (Proc.devRef .tc main_v6))))))
        (Z (Proc.devRef .tc main_v4)) := by
  open_stretch
  after_results_simp <;> rfl
theorem d_w : StableHlo.after opsD Z (Proc.devRef .tc main_arg4) = Z (Proc.devRef .tc main_arg4) := by open_stretch; after_results_simp
theorem d_b : StableHlo.after opsD Z (Proc.devRef .tc main_arg5) = Z (Proc.devRef .tc main_arg5) := by open_stretch; after_results_simp

/-- Layer 2's stretch. -/
theorem e_out : StableHlo.after opsE Z (Proc.devRef .tc main_v46) = outR (F := F) (Z (Proc.devRef .tc main_v41)) (Z (Proc.devRef .tc main_arg4)) (Z (Proc.devRef .tc main_arg5)) := by
  open_stretch
  after_results_simp
  simp only [TRef.ofBuf, TRef.toBuf, cast_eq]
  rfl

end Stretches

/-- The fold of the sixty-four operations at the result buffer: the three stages composed. -/
theorem fold_result (V : Valuation τ sig (Elt F)) :
    StableHlo.after ops V (Proc.devRef .tc main_v46)
      = outR (F := F) (Cert.Glue.agg (F := F) recs
          (hiddenR (F := F) (V (Proc.devRef .tc main_arg0)) (V (Proc.devRef .tc main_arg2)) (V (Proc.devRef .tc main_arg3)))
          (V (Proc.devRef .tc main_arg1)))
        (V (Proc.devRef .tc main_arg4)) (V (Proc.devRef .tc main_arg5)) := by
  rw [ops_split, StableHlo.after_append, StableHlo.after_append, StableHlo.after_append, StableHlo.after_append]
  generalize hA : StableHlo.after opsA V = VA
  generalize hB : StableHlo.after opsB VA = VB
  generalize hC : StableHlo.after opsC VB = VC
  generalize hD : StableHlo.after opsD VC = VD
  have a4 : VA (Proc.devRef .tc main_v4) = hiddenR (F := F) (V (Proc.devRef .tc main_arg0)) (V (Proc.devRef .tc main_arg2)) (V (Proc.devRef .tc main_arg3)) := hA ▸ a_h V
  have ae : VA (Proc.devRef .tc main_arg1) = V (Proc.devRef .tc main_arg1) := hA ▸ a_e V
  have aw : VA (Proc.devRef .tc main_arg4) = V (Proc.devRef .tc main_arg4) := hA ▸ a_w V
  have ab : VA (Proc.devRef .tc main_arg5) = V (Proc.devRef .tc main_arg5) := hA ▸ a_b V
  have b6 : VB (Proc.devRef .tc main_v6) = Cert.Glue.seg (F := F) recs (V (Proc.devRef .tc main_arg1)) := by rw [← hB, b_seg, ae]
  have b7 : VB (Proc.devRef .tc main_v7) = iotaInDim Cert.Glue.SN 32 0 := by rw [← hB, b_iota]
  have b15 : VB (Proc.devRef .tc main_v15) = Cert.Glue.firstOcc (F := F) recs (V (Proc.devRef .tc main_arg1)) := by rw [← hB, b_first, ae]
  have b4 : VB (Proc.devRef .tc main_v4) = hiddenR (F := F) (V (Proc.devRef .tc main_arg0)) (V (Proc.devRef .tc main_arg2)) (V (Proc.devRef .tc main_arg3)) := by rw [← hB, b_h, a4]
  have bw : VB (Proc.devRef .tc main_arg4) = V (Proc.devRef .tc main_arg4) := by rw [← hB, b_w, aw]
  have bb : VB (Proc.devRef .tc main_arg5) = V (Proc.devRef .tc main_arg5) := by rw [← hB, b_b, ab]
  have c16 : VC (Proc.devRef .tc main_v16) = Cert.Glue.order (F := F) recs (V (Proc.devRef .tc main_arg1)) := by rw [← hC, c_order, b15]; rfl
  have c6 : VC (Proc.devRef .tc main_v6) = Cert.Glue.seg (F := F) recs (V (Proc.devRef .tc main_arg1)) := by rw [← hC, c_seg, b6]
  have c7 : VC (Proc.devRef .tc main_v7) = iotaInDim Cert.Glue.SN 32 0 := by rw [← hC, c_iota, b7]
  have c4 : VC (Proc.devRef .tc main_v4) = hiddenR (F := F) (V (Proc.devRef .tc main_arg0)) (V (Proc.devRef .tc main_arg2)) (V (Proc.devRef .tc main_arg3)) := by rw [← hC, c_h, b4]
  have cw : VC (Proc.devRef .tc main_arg4) = V (Proc.devRef .tc main_arg4) := by rw [← hC, c_w, bw]
  have cb : VC (Proc.devRef .tc main_arg5) = V (Proc.devRef .tc main_arg5) := by rw [← hC, c_b, bb]
  have d41 : VD (Proc.devRef .tc main_v41) = Cert.Glue.agg (F := F) recs (hiddenR (F := F) (V (Proc.devRef .tc main_arg0)) (V (Proc.devRef .tc main_arg2)) (V (Proc.devRef .tc main_arg3))) (V (Proc.devRef .tc main_arg1)) := by
    rw [← hD, d_agg, c16, c6, c7, c4]; rfl
  have dw : VD (Proc.devRef .tc main_arg4) = V (Proc.devRef .tc main_arg4) := by rw [← hD, d_w, cw]
  have db : VD (Proc.devRef .tc main_arg5) = V (Proc.devRef .tc main_arg5) := by rw [← hD, d_b, cb]
  rw [e_out, d41, dw, db]

/-! ## The dense stages at the extended reals -/

theorem dot1_plain : dot_S1000000x128_S128x128_S1000000x128_1_0_0_1_n_n = DotDims.plain 1000000 128 128 := rfl
theorem dot2_plain : dot_S1000000x128_S128x16_S1000000x16_1_0_0_1_n_n = DotDims.plain 1000000 128 16 := rfl

/-- A scalar zero broadcast to a shape reads the float zero everywhere. -/
theorem zeros_apply {s : Shape} (h : S_.BroadcastsInDim s (![] : Fin 0 → Fin s.rank)) (i : s.Idx) :
    broadcastInDim s ![] h (constant (F := Ideal) S_ .f32 0x00000000#32) i = Cert.Spec.zero :=
  broadcastInDim_apply ![] h (constant (F := Ideal) S_ .f32 0x00000000#32) i (fun a => a.elim0) (fun a => a.elim0)

/-- The first dense stage is layer 1. -/
theorem hiddenR_eq (x : (⟨S1000000x128, .f32⟩ : BufTy).Contents (Elt Ideal)) (w : (⟨S128x128, .f32⟩ : BufTy).Contents (Elt Ideal))
    (b : (⟨S128, .f32⟩ : BufTy).Contents (Elt Ideal)) :
    hiddenR (F := Ideal) x w b = Cert.Spec.hidden (R := 1000000) x w (fun q => (b : S128.Idx → EReal) (ix1 q)) := by
  funext j
  obtain ⟨p, q, rfl⟩ : ∃ (p : Fin 1000000) (q : Fin 128), j = ix2 p q := ⟨j 0, j 1, eq_ix2 j⟩
  rw [Cert.Spec.hidden_apply]
  unfold hiddenR Cert.Spec.hiddenAt
  rw [maximumf_apply, addf_apply, zeros_apply, Cert.LibPlainDot.rowBroadcastInDim_apply, dot1_plain]
  have hm := Cert.LibPlainDot.dotGeneral_plain (M := 1000000) (K := 128) (N := 128) (φ₁ := .f32) (φ₂ := .f32) none .single x w (ix2 p q)
  exact congrArg₂ max (congrArg₂ (· + ·) hm rfl) rfl

/-- The second dense stage is layer 2. -/
theorem outR_eq (a : (⟨S1000000x128, .f32⟩ : BufTy).Contents (Elt Ideal)) (w : (⟨S128x16, .f32⟩ : BufTy).Contents (Elt Ideal))
    (b : (⟨S16, .f32⟩ : BufTy).Contents (Elt Ideal)) :
    outR (F := Ideal) a w b = Cert.Spec.logits (R := 1000000) a w (fun q => (b : S16.Idx → EReal) (ix1 q)) := by
  funext j
  obtain ⟨p, q, rfl⟩ : ∃ (p : Fin 1000000) (q : Fin 16), j = ix2 p q := ⟨j 0, j 1, eq_ix2 j⟩
  rw [Cert.Spec.logits_apply]
  unfold outR Cert.Spec.logitsAt
  rw [addf_apply, Cert.LibPlainDot.rowBroadcastInDim_apply, dot2_plain]
  have hm := Cert.LibPlainDot.dotGeneral_plain (M := 1000000) (K := 128) (N := 16) (φ₁ := .f32) (φ₂ := .f32) none .single
    (maximumf a (broadcastInDim S1000000x128 ![] bcast_S_S1000000x128 (constant (F := Ideal) S_ .f32 0x00000000#32))) w (ix2 p q)
  refine (congrArg₂ (· + ·) hm rfl).trans ?_
  refine congrArg₂ (· + ·) (Finset.sum_congr rfl fun k _ => ?_) rfl
  rw [maximumf_apply, zeros_apply]

/-! ## The run, read -/

/-- The reference's result as a function of the launch memory: layer 2 of the aggregate of layer 1. -/
def result (m : (ℓ : Loc nD τ sig) → Buf (Elt Ideal) ℓ) (c : Dev nD) : S1000000x16.Idx → EReal :=
  Cert.Spec.logits (R := 1000000)
    (Cert.Glue.agg (F := Ideal) recs
      (Cert.Spec.hidden (R := 1000000) (m ((c.tc : Thread nD τ).loc main_arg0)) (m ((c.tc : Thread nD τ).loc main_arg2))
        (fun q => (m ((c.tc : Thread nD τ).loc main_arg3) : S128.Idx → EReal) (ix1 q)))
      (m ((c.tc : Thread nD τ).loc main_arg1)))
    (m ((c.tc : Thread nD τ).loc main_arg4)) (fun q => (m ((c.tc : Thread nD τ).loc main_arg5) : S16.Idx → EReal) (ix1 q))

set_option maxHeartbeats 4000000 in
/-- Every weakly fair execution of the reference terminates with the result buffer at `result` and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v46).trans (by
        rw [fold_result, hiddenR_eq, outR_eq]
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_fold (F := Ideal) m ρ)

end Cert.ReferenceIdeal.RefValue

end
-- ==== Proof.lean ====
/-
  A two-layer dense model with a segment-sum aggregation between the layers: the Pallas program against its jnp
  reference, over the extended reals.

  Both programs compute   out = W2ᵀ-layer( agg( W1-layer(x) ) ):
    layer 1   h(p, q)   = max( Σ_k x(p, k) · W1(k, q) + b1(q), 0 ),
    agg       the hidden rows added segment by segment, the segments found from the edge list by a scatter-min, a stable
              argsort, a scatter-set and two gathers — the same operations, in the same order, in both programs,
    layer 2   out(p, q) = Σ_k max( a(p, k), 0 ) · W2(k, q) + b2(q).
  The kernel program runs each dense layer as a pallas_call over 125 blocks of 8000 rows (bf16 casts, which are the
  identity on extended reals; a matrix product into a zero accumulator, which is the sum over the contracted axis; the
  bias as a one-row block broadcast down the rows); the reference runs them as host operations (a dot_general, the
  same sum; the bias broadcast twice).  Each layer at a row depends on that row only, so the blocks assemble to the
  layer of the whole arrays.  No law beyond this re-indexing is used: the two results are one expression of the
  arguments, and the precondition is never opened.

  The three frames: the two kernel programs' are the generated frame certificates; the reference's is its run with
  the result dropped.  The ideal pass rewrote nothing, so `preserves` is trivial.
-/
import proofs.«155397_j9234179686641_1_alg».proof.Defs
import proofs.«155397_j9234179686641_1_alg».proof.Proof.Gen.Kernel
import proofs.«155397_j9234179686641_1_alg».proof.Proof.Gen.Kernel.Skeleton
import proofs.«155397_j9234179686641_1_alg».proof.Proof.Gen.Kernel.Launch
import proofs.«155397_j9234179686641_1_alg».proof.Proof.Gen.Kernel.Points
import proofs.«155397_j9234179686641_1_alg».proof.Proof.Gen.Kernel.Frame
import proofs.«155397_j9234179686641_1_alg».proof.Proof.Gen.KernelIdeal
import proofs.«155397_j9234179686641_1_alg».proof.Proof.Gen.KernelIdeal.Skeleton
import proofs.«155397_j9234179686641_1_alg».proof.Proof.Gen.KernelIdeal.Launch
import proofs.«155397_j9234179686641_1_alg».proof.Proof.Gen.KernelIdeal.Points
import proofs.«155397_j9234179686641_1_alg».proof.Proof.Gen.KernelIdeal.Frame
import proofs.«155397_j9234179686641_1_alg».proof.Proof.Gen.ReferenceIdeal
import proofs.«155397_j9234179686641_1_alg».proof.Proof.Gen.Pre_finite_inputs
import proofs.«155397_j9234179686641_1_alg».proof.Proof.KValue
import proofs.«155397_j9234179686641_1_alg».proof.Proof.RefValue
import Idealize.ShloMosaic.Adequacy
import Idealize.ShloMosaic.Init

noncomputable section

namespace Cert.Proof

open Idealize.ShloMosaic Idealize.SL.Sem

/-- Both programs print the aggregation with the same dimension records, comparator and side conditions. -/
theorem recs_eq : Cert.ReferenceIdeal.RefValue.recs = Cert.KernelIdeal.HostSide.recs := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.RefValue.run m ρ)

/-- From memories that agree on the six arguments both programs end with the result at layer 2 of the aggregate of
    layer 1 of those arguments: one expression. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5⟩ := hagree c
  unfold Cert.ReferenceIdeal.RefValue.result Cert.KernelIdeal.KValue.result Cert.KernelIdeal.KValue.hiddenOf
  rw [e0, e1, e2, e3, e4, e5, recs_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
